-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608x1 : Shape := ⟨2, ![8388608, 1]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x4 .f32) (main_arg1 : FVec F S8388608x1 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  main_v8
-- ==== Kernel.lean ====
abbrev S8388608x4 : Shape := ⟨2, ![8388608, 4]⟩
abbrev S8388608x1 : Shape := ⟨2, ![8388608, 1]⟩
abbrev S1x1 : Shape := ⟨2, ![1, 1]⟩
abbrev S_ : Shape := ⟨0, ![]⟩
abbrev S16384x4 : Shape := ⟨2, ![16384, 4]⟩
abbrev S16384x1 : Shape := ⟨2, ![16384, 1]⟩
abbrev S16384 : Shape := ⟨1, ![16384]⟩
abbrev S1x16384 : Shape := ⟨2, ![1, 16384]⟩
abbrev S1 : Shape := ⟨1, ![1]⟩

abbrev nBuf : Space → Nat
  | .hbm => 14
  | .vmem => 8
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S16384x4, .f32⟩
  | .local _ .vmem, ⟨1, _⟩ => ⟨S16384x4, .f32⟩
  | .local _ .vmem, ⟨2, _⟩ => ⟨S16384x1, .f32⟩
  | .local _ .vmem, ⟨3, _⟩ => ⟨S16384x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v100 : BitVec 1 := Scalar.cmpi .eq arg0 c511_i32
  let v101 : BitVec 32 := Scalar.extui v100
  let c0_i32_31 : BitVec 32 := 0#32
  let v102 : BitVec 1 := Scalar.cmpi .ne v101 c0_i32_31
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x4_S16384x4_0_0 : ∀ a, (![0, 0] : Fin 2 → Nat) a + S16384x4.size a ≤ S16384x4.size a
  h_S16384x4 : 0 < S16384x4.numel
  inb_S16384x1_S16384x1_0_0 : ∀ a, (![0, 0] : Fin 2 → Nat) a + S16384x1.size a ≤ S16384x1.size a
  h_S16384x1 : 0 < S16384x1.numel
  slices_S16384x4_o0_1_S16384x1 : S16384x4.Slices ![0, 1] S16384x1
  shapeCasts_S16384x1_S16384 : S16384x1.ShapeCasts S16384
  slices_S16384x4_o0_2_S16384x1 : S16384x4.Slices ![0, 2] S16384x1
  slices_S16384x4_o0_3_S16384x1 : S16384x4.Slices ![0, 3] S16384x1
  shapeCasts_S16384_S1x16384 : S16384.ShapeCasts S1x16384
  reduces_S1x16384_S1 : S1x16384.Reduces [1] S1
  shapeCasts_S1_S1x1 : S1.ShapeCasts S1x1
  inpos_S1x1_p0_0 : ∀ a, (![0, 0] : Fin 2 → Nat) a < S1x1.size a
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S8388608x4.size a
  hwx0_0 : ∀ i : grid0.Coords, EltTy.bits .f32 = 32 ∨ (Rect.block (s := S8388608x4) S16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S8388608x1.size a
  hwx0_1 : ∀ i : grid0.Coords, EltTy.bits .f32 = 32 ∨ (Rect.block (s := S8388608x1) S16384x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608, .f32⟩
  | .hbm, ⟨9, _⟩ => ⟨S_, .f32⟩
  | .hbm, ⟨10, _⟩ => ⟨S8388608, .f32⟩
  | .hbm, ⟨11, _⟩ => ⟨S8388608, .i1⟩
  | .hbm, ⟨12, _⟩ => ⟨S_, .f32⟩
  | .hbm, ⟨13, _⟩ => ⟨S8388608, .f32⟩
  | .hbm, ⟨14, _⟩ => ⟨S8388608, .i1⟩
  | .hbm, ⟨15, _⟩ => ⟨S8388608, .i1⟩
  | .hbm, ⟨16, _⟩ => ⟨S_, .f32⟩
  | .hbm, ⟨17, _⟩ => ⟨S8388608, .f32⟩
  | .hbm, ⟨18, _⟩ => ⟨S8388608, .i1⟩
  | .hbm, ⟨19, _⟩ => ⟨S_, .f32⟩
  | .hbm, ⟨20, _⟩ => ⟨S8388608, .f32⟩
  | .hbm, ⟨21, _⟩ => ⟨S8388608, .i1⟩
  | .hbm, ⟨22, _⟩ => ⟨S8388608, .i1⟩
  | .hbm, ⟨23, _⟩ => ⟨S_, .f32⟩
  | .hbm, ⟨24, _⟩ => ⟨S8388608, .f32⟩
  | .hbm, ⟨25, _⟩ => ⟨S8388608, .i1⟩
  | .hbm, ⟨26, _⟩ => ⟨S8388608, .i1⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S_, .f32⟩
  | .hbm, ⟨31, _⟩ => ⟨S8388608, .f32⟩
  | .hbm, ⟨32, _⟩ => ⟨S8388608, .f32⟩
  | .hbm, ⟨33, _⟩ => ⟨S_, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S8388608, .f32⟩
  | .hbm, ⟨50, _⟩ => ⟨S_, .f32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S_, .f32⟩
  | .hbm, ⟨57, _⟩ => ⟨S_, .f32⟩
  | .hbm, ⟨58, _⟩ => ⟨S8388608, .f32⟩
  | .hbm, ⟨59, _⟩ => ⟨S8388608, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8388608, .f32⟩
  | .hbm, ⟨65, _⟩ => ⟨S8388608, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8388608, .f32⟩
  | .hbm, ⟨72, _⟩ => ⟨S8388608, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8388608, .i32⟩
  | .hbm, ⟨77, _⟩ => ⟨S_, .i32⟩
  | .hbm, ⟨78, _⟩ => ⟨S_, .i32⟩
  | .hbm, ⟨79, _⟩ => ⟨S8388608, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S8388608, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_call1_cst : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_call2_cst : Ref sig .tc := ⟨.hbm, 53, rfl⟩
abbrev main_call2_v0 : Ref sig .tc := ⟨.hbm, 54, rfl⟩
abbrev main_v39 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_cst_9 : Ref sig .tc := ⟨.hbm, 62, rfl⟩
abbrev main_call4_v0 : Ref sig .tc := ⟨.hbm, 63, rfl⟩
abbrev main_call4_v1 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_call5_v0 : Ref sig .tc := ⟨.hbm, 70, rfl⟩
abbrev main_call5_v1 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S8388608x4_S8388608x1_0_1 : S8388608x4.Slices ![0, 1] S8388608x1
  shapeCasts_S8388608x1_S8388608 : S8388608x1.ShapeCasts S8388608
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  reducesTo_S8388608_S_d0 : S8388608.ReducesTo [0] S_
  h_S_ : 0 < S_.numel
  natLt_1_32 : 1 < 32

variable [Facts₀]

class Facts : Prop extends Facts₀ where

variable [Facts]
-- ==== Proof.KernelSteps.lean ====
/-
  What one grid point of the kernel leaves behind, case by case.

  The kernel carries two one-entry accumulators between grid points: the running total of the loss terms and the running
  count of the masked rows. At a point it forms, from its block of 16384 rows, the block's total (the three lane sums of
  the masked terms, added) and the block's count (the three lane sums of the mask bits as reals, added), and adds them to
  the accumulators. At the FIRST point it stores zero into both accumulators before that, so they end at zero plus the
  block's values; at every later point they end at what the point before left plus the block's values; and at the LAST
  point the two outputs are, besides, set to the accumulators' new contents. Each lemma below reads one of these facts
  off the stores the body makes: the last store into a one-entry buffer is what it holds, and a load that follows a
  store reads the stored value.
-/
import proofs.«159499_j78993038508697_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- A block's total: from the block's scores `x0` and times `x1`, the three masked lane sums added, as a one-entry array. -/
abbrev blockTotal (x0 : Vec F S16384x4 .f32) (x1 : Vec F S16384x1 .f32) : FVec F S1x1 .f32 :=
  k0_pay17 (k0_pay9 x0) (k0_pay10 x0) (k0_pay11 x0) (k0_pay12 x0 x1) (k0_pay13 x0 x1) (k0_pay14 x0) (k0_pay15 x0)

/-- A block's count: the three lane sums of its mask bits as reals, added. -/
abbrev blockCount (x0 : Vec F S16384x4 .f32) : F .f32 :=
  k0_pay16 (F := F) (k0_pay9 x0) (k0_pay10 x0) (k0_pay11 x0)

/-! The point, its six buffers (the two input blocks, the two outputs, the two accumulators), and what the inputs hold. -/

variable (c : Dev nD) (i : grid0.Coords)
  (a1 : Memref sig .tc .vmem S16384x4 .f32) (h1 : a1.IsWhole) (a2 : Memref sig .tc .vmem S16384x1 .f32) (h2 : a2.IsWhole)
  (a3 : Memref sig .tc .vmem S1x1 .f32) (h3 : a3.IsWhole) (a4 : Memref sig .tc .vmem S1x1 .f32) (h4 : a4.IsWhole)
  (a5 : Memref sig .tc .vmem S1x1 .f32) (h5 : a5.IsWhole) (a6 : Memref sig .tc .vmem S1x1 .f32) (h6 : a6.IsWhole)
  (x0 : Vec F S16384x4 .f32) (x1 : Vec F S16384x1 .f32)

/-! ## The first point: zero is stored, read back, and the block's values are added to it -/

theorem first_total (hc0 : cond0_0 i) (hc1 : ¬cond0_1 i) :
    sout0_A_0 c i a1 h1 a2 h2 a3 h3 a4 h4 a5 h5 a6 h6 hc0 hc1 x0 x1 = k0_pay1 k0_pay3 (blockTotal x0 x1) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz]
  simp only [View.readAt_eq_ld, h1.read_unread, h2.read_unread, View.readCov_unit_zero (S := S1x1) _ hz,
    View.ld_unit_zero (S := S1x1) hz, View.ld_unit_zero (S := S16384x4) hz, View.ld_unit_zero (S := S16384x1) hz]

theorem first_count (hc0 : cond0_0 i) (hc1 : ¬cond0_1 i) :
    sout0_A_1 c i a1 h1 a2 h2 a3 h3 a4 h4 a5 h5 a6 h6 hc0 hc1 x0 x1 = k0_pay2 (blockCount x0) k0_pay4 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz]
  simp only [View.readAt_eq_ld, h1.read_unread, View.readCov_unit_zero (S := S1x1) _ hz,
    View.ld_unit_zero (S := S1x1) hz, View.ld_unit_zero (S := S16384x4) hz]

/-! ## A later point that is not the last: the accumulators, holding `xs0` and `xs1`, gain the block's values -/

variable (xs0 xs1 : Vec F S1x1 .f32)

theorem next_total (hc0 : ¬cond0_0 i) (hc1 : ¬cond0_1 i) :
    sout0_B_0 c i a1 h1 a2 h2 a3 h3 a4 h4 a5 h5 a6 h6 hc0 hc1 x0 x1 xs0 xs1 = k0_pay1 xs0 (blockTotal x0 x1) := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread,
    View.ld_unit_zero (S := S1x1) hz, View.ld_unit_zero (S := S16384x4) hz, View.ld_unit_zero (S := S16384x1) hz]

theorem next_count (hc0 : ¬cond0_0 i) (hc1 : ¬cond0_1 i) :
    sout0_B_1 c i a1 h1 a2 h2 a3 h3 a4 h4 a5 h5 a6 h6 hc0 hc1 x0 x1 xs0 xs1 = k0_pay2 (blockCount x0) xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h6.read_unread,
    View.ld_unit_zero (S := S1x1) hz, View.ld_unit_zero (S := S16384x4) hz]

/-! ## The last point: the same, and the two outputs are set to the accumulators' new contents -/

theorem last_total (hc0 : ¬cond0_0 i) (hc1 : cond0_1 i) :
    sout0_C_0 c i a1 h1 a2 h2 a3 h3 a4 h4 a5 h5 a6 h6 hc0 hc1 x0 x1 xs0 xs1 = k0_pay1 xs0 (blockTotal x0 x1) := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread,
    View.ld_unit_zero (S := S1x1) hz, View.ld_unit_zero (S := S16384x4) hz, View.ld_unit_zero (S := S16384x1) hz]

theorem last_count (hc0 : ¬cond0_0 i) (hc1 : cond0_1 i) :
    sout0_C_1 c i a1 h1 a2 h2 a3 h3 a4 h4 a5 h5 a6 h6 hc0 hc1 x0 x1 xs0 xs1 = k0_pay2 (blockCount x0) xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h6.read_unread,
    View.ld_unit_zero (S := S1x1) hz, View.ld_unit_zero (S := S16384x4) hz]

/-- The total's output is loaded from its accumulator after the accumulator's store: it holds the new total. -/
theorem out_total (hc0 : ¬cond0_0 i) (hc1 : cond0_1 i) :
    out0_C_2 c i a1 h1 a2 h2 a3 h3 a4 h4 a5 h5 a6 h6 hc0 hc1 x0 x1 xs0 xs1 = k0_pay1 xs0 (blockTotal x0 x1) := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, View.readCov_unit_zero (S := S1x1) _ hz,
    View.ld_unit_zero (S := S1x1) hz, View.ld_unit_zero (S := S16384x4) hz, View.ld_unit_zero (S := S16384x1) hz]

/-- The count's output likewise holds the new count. -/
theorem out_count (hc0 : ¬cond0_0 i) (hc1 : cond0_1 i) :
    out0_C_3 c i a1 h1 a2 h2 a3 h3 a4 h4 a5 h5 a6 h6 hc0 hc1 x0 x1 xs0 xs1 = k0_pay2 (blockCount x0) xs1 := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h6.read_unread, View.readCov_unit_zero (S := S1x1) _ hz,
    View.ld_unit_zero (S := S1x1) hz, View.ld_unit_zero (S := S16384x4) hz]

end Cert.KernelIdeal.Steps

end
-- ==== Proof.KernelChain.lean ====
/-
  The two accumulators, point by point.

  After the first grid point the accumulators hold zero plus the first block's total and count; after every later point,
  what the point before left plus that point's block's total and count. The frame's own account of the run says, case by
  case, what a point leaves; here those cases are chained by induction on the point, so that after ANY point the
  accumulators hold the running sums so far. The last point also copies the new sums into the two outputs.
-/
import proofs.«159499_j78993038508697_1_alg».proof.Proof.KernelSteps

noncomputable section

open Idealize.ShloMosaic Idealize.ShloMosaic.TcCoe Idealize.SL.Sem

namespace Cert.KernelIdeal.Chain

open Cert.KernelIdeal Cert.KernelIdeal.Gen Cert.KernelIdeal.Steps

variable {F : FTy → Type} [FloatOps F]
variable (m : (ℓ : Loc nD τ sig) → Buf (Elt F) ℓ)

/-- The block of scores, and the block of times, that grid point `t` works on. -/
abbrev scoresAt (c : Dev nD) (t : Fin cfg0.N) : Vec F S16384x4 .f32 := iblk m c 0 t
abbrev timesAt (c : Dev nD) (t : Fin cfg0.N) : Vec F S16384x1 .f32 := iblk m c 1 t

/-- What the two accumulators (total, count) hold after grid point `n`. -/
def held (c : Dev nD) : (n : ℕ) → n < cfg0.N → Vec F S1x1 .f32 × Vec F S1x1 .f32
  | 0, h => (k0_pay1 k0_pay3 (blockTotal (scoresAt m c ⟨0, h⟩) (timesAt m c ⟨0, h⟩)),
             k0_pay2 (blockCount (scoresAt m c ⟨0, h⟩)) k0_pay4)
  | n + 1, h => (k0_pay1 (held c n (Nat.lt_of_succ_lt h)).1 (blockTotal (scoresAt m c ⟨n + 1, h⟩) (timesAt m c ⟨n + 1, h⟩)),
                 k0_pay2 (blockCount (scoresAt m c ⟨n + 1, h⟩)) (held c n (Nat.lt_of_succ_lt h)).2)

/-- After any point the accumulators hold the running sums: by induction on the point, the first point being the
    resetting case and every later one an accumulating case (the last of them the one that also writes the outputs). -/
theorem scratch_eq (c : Dev nD) : ∀ (n : ℕ) (h : n < cfg0.N),
    (outsAt0 m c n h).2.2.1 = (held m c n h).1 ∧ (outsAt0 m c n h).2.2.2 = (held m c n h).2
  | 0, h => by
    have hN : cfg0.N = 512 := N_0
    rw [outsAt0_A m c ⟨0, h⟩ rfl (by dsimp only; omega)]
    dsimp only
    exact ⟨first_total c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) scM0_1 (Memref.isWhole_whole _)
        (iblk m c 0 ⟨0, h⟩) (iblk m c 1 ⟨0, h⟩) _ _,
      first_count c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) scM0_1 (Memref.isWhole_whole _)
        (iblk m c 0 ⟨0, h⟩) (iblk m c 1 ⟨0, h⟩) _ _⟩
  | n + 1, h => by
    have hN : cfg0.N = 512 := N_0
    have ih := scratch_eq c n (Nat.lt_of_succ_lt h)
    have h0 : ¬(⟨n + 1, h⟩ : Fin cfg0.N).val % 512 = 0 := by dsimp only; omega
    by_cases h1 : (⟨n + 1, h⟩ : Fin cfg0.N).val % 512 = 511
    · rw [outsAt0_C m c ⟨n + 1, h⟩ h0 h1]
      dsimp only
      refine ⟨(last_total c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
          (iblk m c 0 ⟨n + 1, h⟩) (iblk m c 1 ⟨n + 1, h⟩) _ _ _ _).trans ?_,
        (last_count c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
          (iblk m c 0 ⟨n + 1, h⟩) (iblk m c 1 ⟨n + 1, h⟩) _ _ _ _).trans ?_⟩
      · show k0_pay1 (outsAt0 m c n _).2.2.1 _ = k0_pay1 (held m c n _).1 _
        rw [ih.1]
      · show k0_pay2 _ (outsAt0 m c n _).2.2.2 = k0_pay2 _ (held m c n _).2
        rw [ih.2]
    · rw [outsAt0_B m c ⟨n + 1, h⟩ h0 h1]
      dsimp only
      refine ⟨(next_total c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
          (iblk m c 0 ⟨n + 1, h⟩) (iblk m c 1 ⟨n + 1, h⟩) _ _ _ _).trans ?_,
        (next_count c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
          (iblk m c 0 ⟨n + 1, h⟩) (iblk m c 1 ⟨n + 1, h⟩) _ _ _ _).trans ?_⟩
      · show k0_pay1 (outsAt0 m c n _).2.2.1 _ = k0_pay1 (held m c n _).1 _
        rw [ih.1]
      · show k0_pay2 _ (outsAt0 m c n _).2.2.2 = k0_pay2 _ (held m c n _).2
        rw [ih.2]

/-- At a point that writes the outputs (the last), each output is set to its accumulator's new contents: both are the
    same stored value. Stated at any such point `t`. -/
theorem outputs_eq (c : Dev nD) (t : Fin cfg0.N) (h1 : t.val % 512 = 511) :
    (outsAt0 m c t.val t.isLt).1 = (held m c t.val t.isLt).1 ∧ (outsAt0 m c t.val t.isLt).2.1 = (held m c t.val t.isLt).2 := by
  have h0 : ¬t.val % 512 = 0 := by omega
  have hs := scratch_eq m c t.val t.isLt
  rw [outsAt0_C m c t h0 h1] at hs ⊢
  dsimp only at hs ⊢
  refine ⟨Eq.trans ?_ hs.1, Eq.trans ?_ hs.2⟩
  · exact (out_total c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (iblk m c 0 t) (iblk m c 1 t) _ _ _ _).trans
      (last_total c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (iblk m c 0 t) (iblk m c 1 t) _ _ _ _).symm
  · exact (out_count c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (iblk m c 0 t) (iblk m c 1 t) _ _ _ _).trans
      (last_count c (grid0.coords t) (ms0_0 t) (hs0_0 t) (ms0_1 t) (hs0_1 t) (ms0_2 t) (hs0_2 t) (ms0_3 t) (hs0_3 t)
        scM0_0 (Memref.isWhole_whole _) scM0_1 (Memref.isWhole_whole _) (iblk m c 0 t) (iblk m c 1 t) _ _ _ _).symm

/-- The recursion, one step at a time (so that nothing later has to open it). -/
theorem held_zero (c : Dev nD) (h : 0 < cfg0.N) :
    held m c 0 h = (k0_pay1 k0_pay3 (blockTotal (scoresAt m c ⟨0, h⟩) (timesAt m c ⟨0, h⟩)),
                    k0_pay2 (blockCount (scoresAt m c ⟨0, h⟩)) k0_pay4) := rfl

theorem held_succ (c : Dev nD) (n : ℕ) (h : n + 1 < cfg0.N) :
    held m c (n + 1) h
      = (k0_pay1 (held m c n (Nat.lt_of_succ_lt h)).1 (blockTotal (scoresAt m c ⟨n + 1, h⟩) (timesAt m c ⟨n + 1, h⟩)),
         k0_pay2 (blockCount (scoresAt m c ⟨n + 1, h⟩)) (held m c n (Nat.lt_of_succ_lt h)).2) := rfl

attribute [irreducible] held

end Cert.KernelIdeal.Chain

end
-- ==== Proof.KernelOutputs.lean ====
/-
  The two result arrays when the region ends.

  Each output is a [1, 1] array whose one block, at (0, 0), is the whole array, and the pipeline writes an output back at
  the last of the 512 grid points only. So whatever the output's buffer holds after the last point is what the array
  holds when the region ends. Stated for ANY contents `G` the buffer is known to hold after that point.
-/
import proofs.«159499_j78993038508697_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Outputs

open Cert.KernelIdeal Cert.KernelIdeal.Gen

variable {F : FTy → Type} [FloatOps F]
variable (m : (ℓ : Loc nD τ sig) → Buf (Elt F) ℓ)

theorem last_lt : 511 < cfg0.N := by rw [show cfg0.N = 512 from N_0]; decide

/-- The last grid point. -/
abbrev lastPt : Fin cfg0.N := ⟨511, last_lt⟩

/-- A point that writes an output back is the last point. -/
theorem eq_last_of_flush2 (t : Fin cfg0.N) (hf : (cfg0.win 2).flush t = true) : t = lastPt := by
  have hN : cfg0.N = 512 := N_0
  exact Fin.ext (by have := (flush0_2 t).mp hf; have := t.isLt; show t.val = 511; omega)
theorem eq_last_of_flush3 (t : Fin cfg0.N) (hf : (cfg0.win 3).flush t = true) : t = lastPt := by
  have hN : cfg0.N = 512 := N_0
  exact Fin.ext (by have := (flush0_3 t).mp hf; have := t.isLt; show t.val = 511; omega)

theorem flush2_last : (cfg0.win 2).flush lastPt = true := (flush0_2 lastPt).mpr (by show 511 % 512 = 511; decide)
theorem flush3_last : (cfg0.win 3).flush lastPt = true := (flush0_3 lastPt).mpr (by show 511 % 512 = 511; decide)

/-- Both outputs' blocks at the last point start at (0, 0). -/
theorem origin2 : (fun a => win0_2.index lastPt a * main_call0_v0_0.ty.shape.size a) = fun _ => 0 :=
  funext fun a => by fin_cases a <;> decide +kernel
theorem origin3 : (fun a => win0_3.index lastPt a * main_call0_v0_1.ty.shape.size a) = fun _ => 0 :=
  funext fun a => by fin_cases a <;> decide +kernel

section Total
variable (c : Dev nD) (G : Buf (Elt F) ((c : Thread nD τ).loc main_call0_v0_0))
  (hG : (dats m 0 c).after 2 lastPt = G)
include hG

/-- What a writing point writes back of the total's output is `G`, read through the point's block. -/
theorem flushed_total (t : Fin cfg0.N) (hf : (cfg0.win 2).flush t = true) :
    (dats m 0 c).flushed 2 t = ((cfg0.win 2).blk t).view.read (Elt F) G := by
  obtain rfl := eq_last_of_flush2 t hf
  show (cfg0.win 2).cut (grid0.coords lastPt) ((dats m 0 c).after 2 lastPt) = _
  rw [hG]
  exact (Memref.read_access_unit_zero (Elt F) main_call0_v0_0 origin2 (fun a => by rw [congrFun origin2 a]; simp) G).symm

/-- So the total's array ends holding `G`: its one entry lies in the last point's block. -/
theorem final_total : (dats m 0 c).arrAt 2 cfg0.N = G :=
  (dats m 0 c).arrAt_eq_of_cover 2 G (flushed_total m c G hG) fun i =>
    ⟨lastPt, flush2_last, by
      show i ∈ ((View.whole main_call0_v0_0).slice (win0_2.rect lastPt)).set
      rw [View.set_slice_whole, Rect.mem_set_unit]
      intro a
      match a with
      | ⟨0, _⟩ =>
        have h0 : (i 0 : Nat) < 1 := (i 0).isLt
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]
        omega
      | ⟨1, _⟩ =>
        have h1 : (i 1 : Nat) < 1 := (i 1).isLt
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 1 from by decide +kernel]
        omega⟩

end Total

section Count
variable (c : Dev nD) (G : Buf (Elt F) ((c : Thread nD τ).loc main_call0_v0_1))
  (hG : (dats m 0 c).after 3 lastPt = G)
include hG

theorem flushed_count (t : Fin cfg0.N) (hf : (cfg0.win 3).flush t = true) :
    (dats m 0 c).flushed 3 t = ((cfg0.win 3).blk t).view.read (Elt F) G := by
  obtain rfl := eq_last_of_flush3 t hf
  show (cfg0.win 3).cut (grid0.coords lastPt) ((dats m 0 c).after 3 lastPt) = _
  rw [hG]
  exact (Memref.read_access_unit_zero (Elt F) main_call0_v0_1 origin3 (fun a => by rw [congrFun origin3 a]; simp) G).symm

theorem final_count : (dats m 0 c).arrAt 3 cfg0.N = G :=
  (dats m 0 c).arrAt_eq_of_cover 3 G (flushed_count m c G hG) fun i =>
    ⟨lastPt, flush3_last, by
      show i ∈ ((View.whole main_call0_v0_1).slice (win0_3.rect lastPt)).set
      rw [View.set_slice_whole, Rect.mem_set_unit]
      intro a
      match a with
      | ⟨0, _⟩ =>
        have h0 : (i 0 : Nat) < 1 := (i 0).isLt
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 1 from by decide +kernel]
        omega
      | ⟨1, _⟩ =>
        have h1 : (i 1 : Nat) < 1 := (i 1).isLt
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 1 from by decide +kernel]
        omega⟩

end Count

end Cert.KernelIdeal.Outputs

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.LibMaskCount.lean ====
/-
  Counting the set bits of a mask by integer addition.

  A mask of `n` one-bit words laid along one axis, each widened to a 32-bit word (0 or 1) and summed into a scalar by
  wrap-around word addition, counts the set bits exactly as long as `n` is below 2³²: every partial sum is at most `n`,
  so no addition wraps, and the result's value is the plain sum over the positions of the widened bits' values.
  Below 2³¹ the same word read as a SIGNED integer is still that sum, and so is any sum of a few such counts that
  stays below 2³¹. A sum over the index set of a one-axis shape is the sum over the positions `Fin n`.
-/
import Idealize.ShloMosaic.Lib.StableHlo.Predicate
import Idealize.ShloMosaic.Lib.ValueIdx

namespace MaskCount

open Idealize.ShloMosaic Idealize.ShloMosaic.ValueIdx

/-- The index set of a one-axis shape is its range of positions. -/
def idxEquiv1 {n : Nat} : (⟨1, ![n]⟩ : Shape).Idx ≃ Fin n where
  toFun i := i 0
  invFun a := ix1 a
  left_inv i := (eq_ix1 i).symm
  right_inv _ := rfl

/-- A sum over a one-axis index set is the sum over the positions. -/
theorem sum_idx1 {M : Type*} [AddCommMonoid M] {n : Nat} (f : (⟨1, ![n]⟩ : Shape).Idx → M) :
    ∑ i, f i = ∑ a : Fin n, f (ix1 a) :=
  (Equiv.sum_comp idxEquiv1.symm f).symm

/-- A widened bit is worth at most one. -/
theorem toNat_setWidth_le_one (b : BitVec 1) : (b.setWidth 32).toNat ≤ 1 := by
  rw [StableHlo.Predicate.toNat_setWidth_bit]; split <;> omega

/-- The sum of `n` widened bits is at most `n`. -/
theorem sum_bits_le {n : Nat} (mask : IVec ⟨1, ![n]⟩ 1) :
    ∑ a : Fin n, ((mask (ix1 a)).setWidth 32).toNat ≤ n := by
  calc ∑ a : Fin n, ((mask (ix1 a)).setWidth 32).toNat ≤ ∑ _a : Fin n, 1 :=
        Finset.sum_le_sum fun a _ => toNat_setWidth_le_one (mask (ix1 a))
    _ = n := by simp

/-- THE COUNT. The sum-reduction of a widened one-axis mask into a scalar, from zero: its value is the sum of the widened
    bits' values over the positions (`n` below 2³², so that nothing wraps). -/
theorem toNat_reduce_count {n : Nat} (hn : n < 2 ^ 32) (mask : IVec ⟨1, ![n]⟩ 1) (hw : 1 < 32)
    (h : (⟨1, ![n]⟩ : Shape).ReducesTo [0] ⟨0, ![]⟩) {u : Shape} (hu : 0 < u.numel) (j : (⟨0, ![]⟩ : Shape).Idx) :
    (Host.reduce IntOp.addi (extui 32 mask hw) (constantI u 32 0#32) h hu j).toNat
      = ∑ a : Fin n, ((mask (ix1 a)).setWidth 32).toNat := by
  classical
  rw [Host.reduce_eq_fold]
  have hall : (Finset.univ.filter fun i : (⟨1, ![n]⟩ : Shape).Idx => h.drop i = j) = Finset.univ :=
    Finset.filter_true_of_mem fun i _ => funext fun b => b.elim0
  have hsum : ∑ i : (⟨1, ![n]⟩ : Shape).Idx, (extui 32 mask hw i).toNat = ∑ a : Fin n, ((mask (ix1 a)).setWidth 32).toNat :=
    sum_idx1 fun i => (extui 32 mask hw i).toNat
  show (Finset.fold IntOp.addi 0#32 (extui 32 mask hw) (Finset.univ.filter fun i : (⟨1, ![n]⟩ : Shape).Idx => h.drop i = j)).toNat = _
  rw [hall, StableHlo.Predicate.toNat_fold_addi _ _ (by rw [hsum]; exact lt_of_le_of_lt (sum_bits_le mask) hn), hsum]

/-- Three counts that together stay below 2³¹, added as words and read as a signed integer: the sum of the three. -/
theorem toInt_add3 (x y z : BitVec 32) (hb : x.toNat + y.toNat + z.toNat < 2 ^ 31) :
    (IntOp.addi (IntOp.addi x y) z).toInt = ((x.toNat + y.toNat + z.toNat : ℕ) : ℤ) := by
  have e : (IntOp.addi (IntOp.addi x y) z).toNat = x.toNat + y.toNat + z.toNat := by
    show ((x + y) + z).toNat = _
    rw [BitVec.toNat_add, BitVec.toNat_add]
    omega
  rw [StableHlo.Predicate.toInt_eq_toNat_of_lt (by rw [e]; exact hb), e]

/-- A widened bit read as a signed integer is its value. -/
theorem toInt_setWidth_bit (b : BitVec 1) : ((b.setWidth 32).toInt : ℤ) = ((b.setWidth 32).toNat : ℕ) :=
  StableHlo.Predicate.toInt_eq_toNat_of_lt (lt_of_le_of_lt (toNat_setWidth_le_one b) (by norm_num))

end MaskCount
-- ==== Proof.RowLoss.lean ====
/-
  The temporal-consistency loss, as mathematics over the extended reals.

  Each row carries three scores p4, p5, p6 (columns 1, 2, 3 of the predictions) and a time t. With the threshold
  θ = f32(0.3) and the margin μ = f32(0.1) (the same two words on both sides, never evaluated), a row contributes

    l45  = [p4 > θ ∧ p5 > θ]          · max(μ − (p5·t − p4·t), 0)
    l56  = [p5 > θ ∧ p6 > θ]          · max(μ − (p6·t − p5·t), 0)
    l456 = [p4 > θ ∧ p5 > θ ∧ p6 > θ] · max((|p5 − p4| − |p6 − p5|) + μ, 0)

  and the three indicator values c45, c56, c456 (0 or 1). The loss is
  0.1 · (if count > 0 then total / max(count, 1) else total), with total = Σ l45 + Σ l56 + Σ l456 and
  count = Σ c45 + Σ c56 + Σ c456 over all rows.

  Three laws join the two ways of computing it:
  * BLOCKS. The rows cut into 512 consecutive blocks of 16384: the sum over the blocks of each block's total is the total
    over all rows (addition on the extended reals is a commutative monoid; nothing needs finiteness).
  * ACCUMULATION. Starting from zero and adding the blocks' values one after the other leaves their sum.
  * COUNTING BY WORDS. Summing the indicators as 32-bit integers (three wrap-around sums, added) and converting the
    result to a real gives the same count: at most 3 · 2²³ < 2³¹, so nothing wraps and the signed reading is the value.
-/
import Idealize.ShloMosaic.PureOps.Ideal.Laws
import Idealize.ShloMosaic.Lib.ValueIdx
import proofs.«159499_j78993038508697_1_alg».proof.Proof.LibBlockSum
import proofs.«159499_j78993038508697_1_alg».proof.Proof.LibMaskCount

noncomputable section

namespace RowLoss

open Idealize.ShloMosaic Idealize.ShloMosaic.ValueIdx

/-! ## One row -/

/-- The threshold, the margin and zero: the programs' own words. -/
def thr : EReal := Ideal.ofBits .f32 0x3E99999A#32
def mar : EReal := Ideal.ofBits .f32 0x3DCCCCCD#32
def zer : EReal := Ideal.ofBits .f32 0x00000000#32

theorem zer_eq : zer = 0 := Ideal.ofBits_zero_f32

/-- "The score is above the threshold", as the one-bit word the comparison yields. -/
def above (a : EReal) : BitVec 1 := FloatOps.cmpf (F := Ideal) (φ := .f32) .ogt a thr
/-- The conjunction of two such bits. -/
def both (x y : BitVec 1) : BitVec 1 := IntOp.andi x y
/-- The hinge on the time-weighted gap between a score `lo` and the next score `hi`. -/
def hinge (lo hi t : EReal) : EReal := max (mar - (hi * t - lo * t)) zer
/-- The hinge on the difference of the two consecutive distances. -/
def spread (p4 p5 p6 : EReal) : EReal :=
  max ((FloatOps.absf (F := Ideal) (φ := .f32) (p5 - p4) - FloatOps.absf (F := Ideal) (φ := .f32) (p6 - p5)) + mar) zer
/-- A term kept where its mask bit is set, zero elsewhere. -/
def pick (b : BitVec 1) (x : EReal) : EReal := Scalar.select b x zer
/-- A mask bit as a real: widened to a 32-bit word and read as a signed integer. -/
def bit (b : BitVec 1) : EReal := (((b.setWidth 32).toInt : ℝ) : EReal)

def l45 (p4 p5 t : EReal) : EReal := pick (both (above p4) (above p5)) (hinge p4 p5 t)
def l56 (p5 p6 t : EReal) : EReal := pick (both (above p5) (above p6)) (hinge p5 p6 t)
def l456 (p4 p5 p6 : EReal) : EReal := pick (both (both (above p4) (above p5)) (above p6)) (spread p4 p5 p6)
def c45 (p4 p5 : EReal) : EReal := bit (both (above p4) (above p5))
def c56 (p5 p6 : EReal) : EReal := bit (both (above p5) (above p6))
def c456 (p4 p5 p6 : EReal) : EReal := bit (both (both (above p4) (above p5)) (above p6))

/-! ## Many rows -/

/-- `n` rows of four scores, and their `n` times. -/
abbrev Scores (n : ℕ) := (⟨2, ![n, 4]⟩ : Shape).Idx → EReal
abbrev Times (n : ℕ) := (⟨2, ![n, 1]⟩ : Shape).Idx → EReal

variable {n : ℕ}

/-- The three sums of loss terms over `n` rows, added left to right. -/
def total (a : Scores n) (b : Times n) : EReal :=
  (∑ r : Fin n, l45 (a (ix2 r 1)) (a (ix2 r 2)) (b (ix2 r 0)) + ∑ r : Fin n, l56 (a (ix2 r 2)) (a (ix2 r 3)) (b (ix2 r 0)))
    + ∑ r : Fin n, l456 (a (ix2 r 1)) (a (ix2 r 2)) (a (ix2 r 3))

/-- The three sums of indicator values over `n` rows, added left to right. -/
def count (a : Scores n) : EReal :=
  (∑ r : Fin n, c45 (a (ix2 r 1)) (a (ix2 r 2)) + ∑ r : Fin n, c56 (a (ix2 r 2)) (a (ix2 r 3)))
    + ∑ r : Fin n, c456 (a (ix2 r 1)) (a (ix2 r 2)) (a (ix2 r 3))

/-! ## Blocks -/

/-- Row `l` of block `t`, among all the rows. -/
def rowOf (t : Fin 512) (l : Fin 16384) : Fin 8388608 :=
  ⟨16384 * t.val + l.val, by have := t.isLt; have := l.isLt; omega⟩

/-- A sum over all rows is the sum over the blocks of the sums inside each block. -/
theorem sum_rows (g : Fin 8388608 → EReal) :
    ∑ r : Fin 8388608, g r = ∑ t : Fin 512, ∑ l : Fin 16384, g (rowOf t l) := by
  have h := BlockSum.sum_fin_mul (M := EReal) (fun i => if h : i < 8388608 then g ⟨i, h⟩ else 0) 512 16384
  have e1 : ∑ r : Fin 8388608, g r
      = ∑ i : Fin (512 * 16384), (if h : i.val < 8388608 then g ⟨i.val, h⟩ else 0) :=
    Finset.sum_congr rfl fun r _ => by rw [dif_pos r.isLt]
  refine e1.trans (h.trans ?_)
  rw [Finset.sum_range]
  refine Finset.sum_congr rfl fun t _ => Finset.sum_congr rfl fun l _ => ?_
  have hl : 16384 * t.val + l.val < 8388608 := by have := t.isLt; have := l.isLt; omega
  show (if h : 16384 * t.val + l.val < 8388608 then g ⟨16384 * t.val + l.val, h⟩ else 0) = g (rowOf t l)
  rw [dif_pos hl]
  rfl

/-- BLOCKS, for the loss: arrays whose blocks are `X t`, `Y t`. -/
theorem total_blocks (a : Scores 8388608) (b : Times 8388608) (X : Fin 512 → Scores 16384) (Y : Fin 512 → Times 16384)
    (hX : ∀ t l k, X t (ix2 l k) = a (ix2 (rowOf t l) k)) (hY : ∀ t l k, Y t (ix2 l k) = b (ix2 (rowOf t l) k)) :
    ∑ t : Fin 512, total (X t) (Y t) = total a b := by
  unfold total
  rw [Finset.sum_add_distrib, Finset.sum_add_distrib,
    sum_rows fun r => l45 (a (ix2 r 1)) (a (ix2 r 2)) (b (ix2 r 0)),
    sum_rows fun r => l56 (a (ix2 r 2)) (a (ix2 r 3)) (b (ix2 r 0)),
    sum_rows fun r => l456 (a (ix2 r 1)) (a (ix2 r 2)) (a (ix2 r 3))]
  simp only [hX, hY]

/-- BLOCKS, for the count. -/
theorem count_blocks (a : Scores 8388608) (X : Fin 512 → Scores 16384)
    (hX : ∀ t l k, X t (ix2 l k) = a (ix2 (rowOf t l) k)) :
    ∑ t : Fin 512, count (X t) = count a := by
  unfold count
  rw [Finset.sum_add_distrib, Finset.sum_add_distrib,
    sum_rows fun r => c45 (a (ix2 r 1)) (a (ix2 r 2)),
    sum_rows fun r => c56 (a (ix2 r 2)) (a (ix2 r 3)),
    sum_rows fun r => c456 (a (ix2 r 1)) (a (ix2 r 2)) (a (ix2 r 3))]
  simp only [hX]

/-! ## Accumulation -/

/-- Zero, then the values added one after the other: what is held after the value numbered `n`. -/
def running (v : ℕ → EReal) : ℕ → EReal
  | 0 => zer + v 0
  | n + 1 => running v n + v (n + 1)

/-- ACCUMULATION: it is the sum of the values so far. -/
theorem running_eq (v : ℕ → EReal) (n : ℕ) : running v n = ∑ s ∈ Finset.range (n + 1), v s := by
  induction n with
  | zero => simp [running, zer_eq]
  | succ n ih => rw [running, ih, Finset.sum_range_succ _ (n + 1)]

/-- After the last of 512 values: their sum over the blocks. -/
theorem running_last (w : Fin 512 → EReal) :
    running (fun s => if h : s < 512 then w ⟨s, h⟩ else 0) 511 = ∑ t : Fin 512, w t := by
  rw [running_eq, Finset.sum_range]
  exact Finset.sum_congr rfl fun t _ => dif_pos t.isLt

/-! ## Counting by words -/

/-- A mask bit's real value is its widened word's value. -/
theorem bit_eq (b : BitVec 1) : bit b = (((b.setWidth 32).toNat : ℕ) : EReal) := by
  unfold bit
  rw [MaskCount.toInt_setWidth_bit, Int.cast_natCast]
  rfl

/-- COUNTING BY WORDS. Three masks over all the rows, each widened and summed as 32-bit words from zero, the three sums
    added as words, the result read as a signed integer and made a real: the sum of the three sums of the bits' values. -/
theorem count_words (M1 M2 M3 : IVec ⟨1, ![8388608]⟩ 1) (hw : 1 < 32)
    (h : (⟨1, ![8388608]⟩ : Shape).ReducesTo [0] ⟨0, ![]⟩) {u : Shape} (hu : 0 < u.numel) (j : (⟨0, ![]⟩ : Shape).Idx) :
    ((((IntOp.addi (IntOp.addi (Host.reduce IntOp.addi (extui 32 M1 hw) (constantI u 32 0#32) h hu j)
          (Host.reduce IntOp.addi (extui 32 M2 hw) (constantI u 32 0#32) h hu j))
          (Host.reduce IntOp.addi (extui 32 M3 hw) (constantI u 32 0#32) h hu j)).toInt : ℝ)) : EReal)
      = (∑ r : Fin 8388608, bit (M1 (ix1 r)) + ∑ r : Fin 8388608, bit (M2 (ix1 r))) + ∑ r : Fin 8388608, bit (M3 (ix1 r)) := by
  have hn : (8388608 : ℕ) < 2 ^ 32 := by norm_num
  have e1 := MaskCount.toNat_reduce_count hn M1 hw h hu j
  have e2 := MaskCount.toNat_reduce_count hn M2 hw h hu j
  have e3 := MaskCount.toNat_reduce_count hn M3 hw h hu j
  have b1 := MaskCount.sum_bits_le M1
  have b2 := MaskCount.sum_bits_le M2
  have b3 := MaskCount.sum_bits_le M3
  rw [MaskCount.toInt_add3 _ _ _ (by rw [e1, e2, e3]; omega), e1, e2, e3]
  simp only [bit_eq]
  rw [← Nat.cast_sum, ← Nat.cast_sum, ← Nat.cast_sum, ← Nat.cast_add, ← Nat.cast_add, Int.cast_natCast]
  rfl

/-! ## The last step -/

/-- From the total and the count (two scalars, as rank-0 arrays) to the loss: the mean over the counted terms when there
    is one, the total itself otherwise, scaled by f32(0.1). Both programs end with exactly these operations. -/
def scaled {F : FTy → Type} [FloatOps F] (tot cnt : FVec F ⟨0, ![]⟩ .f32) : FVec F ⟨0, ![]⟩ .f32 :=
  mulf (constant ⟨0, ![]⟩ .f32 0x3DCCCCCD#32)
    (select (cmpf .ogt cnt (constant ⟨0, ![]⟩ .f32 0x00000000#32))
      (Host.divf tot (maximumf cnt (constant ⟨0, ![]⟩ .f32 0x3F800000#32))) tot)

end RowLoss

end
-- ==== Proof.KernelTail.lean ====
/-
  The operations after the region.

  When the region ends the two result arrays hold some contents `T` (the total) and `C` (the count), each a [1, 1] array.
  The ten operations after it reshape both to scalars and compute 0.1 · (if C > 0 then T / max(C, 1) else T): the
  specification's last step of the two scalars. Stated for ANY final contents of the two arrays.
-/
import proofs.«159499_j78993038508697_1_alg».proof.Proof.Gen.KernelIdeal.Frame
import proofs.«159499_j78993038508697_1_alg».proof.Proof.RowLoss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

theorem tail_of (c : Dev nD) (T : Buf (Elt F) ((c : Thread nD τ).loc main_call0_v0_0))
    (C : Buf (Elt F) ((c : Thread nD τ).loc main_call0_v0_1))
    (hT : (dats m 0 c).arrAt 2 cfg0.N = T) (hC : (dats m 0 c).arrAt 3 cfg0.N = C) :
    Pipeline.afterTail₀ cfgs (dats m) 0 (V0 m) [hostOps1] c main_v0
      = RowLoss.scaled (shapeCast S_ T shapeCasts_S1x1_S_) (shapeCast S_ C shapeCasts_S1x1_S_) := by
  unfold Pipeline.afterTail₀
  show StableHlo.after hostOps1 _ (Proc.devRef .tc main_v0) = _
  after_results
  -- what the operations read of the two arrays is what the region left in them
  have e2 : Pipeline.withArrays (cfgs 0).spec c (V0 m c) (fun w => (dats m 0 c).arrAt w (cfgs 0).N)
      (Proc.devRef .tc main_call0_v0_0) = T :=
    (Pipeline.withArrays_arr spec0 launch0.win.arr_inj c _ _ 2).trans hT
  have e3 : Pipeline.withArrays (cfgs 0).spec c (V0 m c) (fun w => (dats m 0 c).arrAt w (cfgs 0).N)
      (Proc.devRef .tc main_call0_v0_1) = C :=
    (Pipeline.withArrays_arr spec0 launch0.win.arr_inj c _ _ 3).trans hC
  simp only [StableHlo.TRef.ofBuf, StableHlo.TRef.toBuf, cast_eq]
  rw [e2, e3]
  rfl

end Cert.KernelIdeal.Tail

end
-- ==== Proof.KernelResult.lean ====
/-
  What the kernel's program returns, in terms of the accumulators' final contents.

  After the last grid point each output's buffer holds its accumulator's final contents; that point is the only one that
  writes the outputs back, and each output's one block is its whole [1, 1] array. So when the region ends the two arrays
  hold the final total and the final count, and the operations after the region take the specification's last step of
  the two, reshaped to scalars.
-/
import proofs.«159499_j78993038508697_1_alg».proof.Proof.KernelChain
import proofs.«159499_j78993038508697_1_alg».proof.Proof.KernelOutputs
import proofs.«159499_j78993038508697_1_alg».proof.Proof.KernelTail

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Chain Cert.KernelIdeal.Outputs Cert.KernelIdeal.Tail

variable {F : FTy → Type} [FloatOps F]
variable (m : (ℓ : Loc nD τ sig) → Buf (Elt F) ℓ)

/-- The accumulators' contents after the last point, as contents of the two result arrays. -/
abbrev totalArr (c : Dev nD) : Buf (Elt F) ((c : Thread nD τ).loc main_call0_v0_0) := (held m c lastPt.val lastPt.isLt).1
abbrev countArr (c : Dev nD) : Buf (Elt F) ((c : Thread nD τ).loc main_call0_v0_1) := (held m c lastPt.val lastPt.isLt).2

theorem last_mod : (lastPt : Fin cfg0.N).val % 512 = 511 := by show 511 % 512 = 511; decide

/-- After the last point the outputs' buffers hold them. -/
theorem after_total (c : Dev nD) : (dats m 0 c).after 2 lastPt = totalArr m c :=
  (after0_2 m c lastPt).trans (outputs_eq m c lastPt last_mod).1
theorem after_count (c : Dev nD) : (dats m 0 c).after 3 lastPt = countArr m c :=
  (after0_3 m c lastPt).trans (outputs_eq m c lastPt last_mod).2

/-- The program's result: the last step of the final total and count, reshaped to scalars. -/
theorem tail_eq (c : Dev nD) :
    Pipeline.afterTail₀ cfgs (dats m) 0 (V0 m) [hostOps1] c main_v0
      = RowLoss.scaled (shapeCast S_ (totalArr m c) shapeCasts_S1x1_S_) (shapeCast S_ (countArr m c) shapeCasts_S1x1_S_) :=
  tail_of m c (totalArr m c) (countArr m c) (final_total m c (totalArr m c) (after_total m c))
    (final_count m c (countArr m c) (after_count m c))

end Cert.KernelIdeal.Result

end
-- ==== Proof.KernelBlocks.lean ====
/-
  The blocks the grid points read are consecutive runs of rows.

  Grid point `b` fetches block `b` of the scores and block `b` of the times: rows 16384·b … 16384·b + 16383, all columns.
  So entry (l, k) of the point's block is entry (16384·b + l, k) of the argument array.
-/
import proofs.«159499_j78993038508697_1_alg».proof.Proof.KernelChain
import proofs.«159499_j78993038508697_1_alg».proof.Proof.RowLoss

noncomputable section

open Idealize.ShloMosaic Idealize.ShloMosaic.TcCoe Idealize.ShloMosaic.ValueIdx Idealize.SL.Sem

namespace Cert.KernelIdeal.Blocks

open Cert.KernelIdeal Cert.KernelIdeal.Gen Cert.KernelIdeal.Chain

variable {F : FTy → Type} [FloatOps F]
variable (m : (ℓ : Loc nD τ sig) → Buf (Elt F) ℓ)

/-- Block number `b` as a grid point. -/
def pointOf (b : Fin 512) : Fin cfg0.N := ⟨b.val, lt_of_lt_of_eq b.isLt N_0.symm⟩

/-- Both input windows' index maps send grid point `t` to block (t, 0). -/
theorem scores_index : ∀ t : Fin cfg0.N, win0_0.index t 0 = t.val ∧ win0_0.index t 1 = 0 :=
  (by decide +kernel : ∀ t : Fin grid0.N, win0_0.index t 0 = t.val ∧ win0_0.index t 1 = 0)
theorem times_index : ∀ t : Fin cfg0.N, win0_1.index t 0 = t.val ∧ win0_1.index t 1 = 0 :=
  (by decide +kernel : ∀ t : Fin grid0.N, win0_1.index t 0 = t.val ∧ win0_1.index t 1 = 0)

theorem scores_entry (c : Dev nD) (b : Fin 512) (l : Fin 16384) (k : Fin 4) :
    scoresAt m c (pointOf b) (ix2 l k) = m ((c : Thread nD τ).loc main_arg0) (ix2 (RowLoss.rowOf b l) k) := by
  have hi := scores_index (pointOf b)
  show iblk m c 0 (pointOf b) (ix2 l k) = _
  unfold iblk
  rw [View.read_apply]
  show V m c main_arg0 _ = m ((c : Thread nD τ).loc main_arg0) _
  rw [V_main_arg0]
  congr 1
  funext a
  apply Fin.ext
  match a with
  | ⟨0, _⟩ =>
    show win0_0.index (pointOf b) 0 * 16384 + 1 * l.val = 16384 * b.val + l.val
    rw [hi.1]; show b.val * 16384 + 1 * l.val = _; omega
  | ⟨1, _⟩ =>
    show win0_0.index (pointOf b) 1 * 4 + 1 * k.val = k.val
    rw [hi.2]; omega

theorem times_entry (c : Dev nD) (b : Fin 512) (l : Fin 16384) (k : Fin 1) :
    timesAt m c (pointOf b) (ix2 l k) = m ((c : Thread nD τ).loc main_arg1) (ix2 (RowLoss.rowOf b l) k) := by
  have hi := times_index (pointOf b)
  show iblk m c 1 (pointOf b) (ix2 l k) = _
  unfold iblk
  rw [View.read_apply]
  show V m c main_arg1 _ = m ((c : Thread nD τ).loc main_arg1) _
  rw [V_main_arg1]
  congr 1
  funext a
  apply Fin.ext
  match a with
  | ⟨0, _⟩ =>
    show win0_1.index (pointOf b) 0 * 16384 + 1 * l.val = 16384 * b.val + l.val
    rw [hi.1]; show b.val * 16384 + 1 * l.val = _; omega
  | ⟨1, _⟩ =>
    show win0_1.index (pointOf b) 1 * 1 + 1 * k.val = k.val
    rw [hi.2]; omega

end Cert.KernelIdeal.Blocks

end
-- ==== Proof.KernelLanes.lean ====
/-
  Columns and lane sums of one block.

  A block is 16384 rows of four scores and 16384 times. The kernel takes columns 1, 2, 3 of the scores and the one column
  of the times as four vectors of 16384 lanes: lane `l` of a column is row `l`'s entry. It sums a vector over the lanes
  by laying it as one row, reducing along the row from zero and taking the one entry out: at the extended reals, the sum
  over the lanes. The block's total and count are three such lane sums each, added left to right.
-/
import proofs.«159499_j78993038508697_1_alg».proof.Proof.KernelSteps
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx

namespace Cert.KernelIdeal.BlockValue

open Cert.KernelIdeal Cert.KernelIdeal.Gen Cert.KernelIdeal.Steps

/-! ## Columns: lane `l` of a column vector is row `l`'s entry -/

section Columns
variable {F : FTy → Type} [FloatOps F]

/-- Reading a [16384, 1] column as 16384 lanes keeps the order. -/
theorem lanes_apply {α : Type} (y : S16384x1.Idx → α) (l : Fin 16384) :
    shapeCast S16384 y shapeCasts_S16384x1_S16384 (ix1 l) = y (ix2 l 0) :=
  shapeCast_apply y shapeCasts_S16384x1_S16384 (ix1 l) (ix2 l 0)
    (by rw [Shape.rowMajor_val_two, Shape.rowMajor_val_one]; show l.val * 1 + 0 = l.val; omega)

theorem score4_apply (x0 : Vec F S16384x4 .f32) (l : Fin 16384) : k0_pay5 x0 (ix1 l) = x0 (ix2 l 1) := by
  unfold k0_pay5
  refine (lanes_apply _ l).trans ?_
  exact extractStridedSlice_apply ![0, 1] x0 slices_S16384x4_o0_1_S16384x1 (ix2 l 0) (ix2 l 1) (fun a => match a with
    | ⟨0, _⟩ => by show l.val = 0 + l.val; omega
    | ⟨1, _⟩ => rfl)

theorem score5_apply (x0 : Vec F S16384x4 .f32) (l : Fin 16384) : k0_pay6 x0 (ix1 l) = x0 (ix2 l 2) := by
  unfold k0_pay6
  refine (lanes_apply _ l).trans ?_
  exact extractStridedSlice_apply ![0, 2] x0 slices_S16384x4_o0_2_S16384x1 (ix2 l 0) (ix2 l 2) (fun a => match a with
    | ⟨0, _⟩ => by show l.val = 0 + l.val; omega
    | ⟨1, _⟩ => rfl)

theorem score6_apply (x0 : Vec F S16384x4 .f32) (l : Fin 16384) : k0_pay7 x0 (ix1 l) = x0 (ix2 l 3) := by
  unfold k0_pay7
  refine (lanes_apply _ l).trans ?_
  exact extractStridedSlice_apply ![0, 3] x0 slices_S16384x4_o0_3_S16384x1 (ix2 l 0) (ix2 l 3) (fun a => match a with
    | ⟨0, _⟩ => by show l.val = 0 + l.val; omega
    | ⟨1, _⟩ => rfl)

theorem time_apply (x1 : Vec F S16384x1 .f32) (l : Fin 16384) : k0_pay8 x1 (ix1 l) = x1 (ix2 l 0) := by
  unfold k0_pay8
  exact lanes_apply _ l

end Columns

/-! ## Lane sums -/

/-- The sum over the lanes as the kernel forms it: the vector laid as one row of 16384, reduced along the row from zero,
    and the one entry taken out. -/
def laneSum {F : FTy → Type} [FloatOps F] (v : FVec F S16384 .f32) : F .f32 :=
  extractAt ![0, 0]
    (shapeCast S1x1 (multiReduction .add [1] S1 (shapeCast S1x16384 v shapeCasts_S16384_S1x16384) 0x00000000#32
      reduces_S1x16384_S1 (.inl rfl) rfl) shapeCasts_S1_S1x1) inpos_S1x1_p0_0

/-- Taking out the one entry of a [1, 1] array reads it at its one index. -/
theorem entry_apply {α : Type} (x : S1x1.Idx → α) : extractAt ![0, 0] x inpos_S1x1_p0_0 = x (ix2 0 0) := by
  unfold extractAt
  congr 1
  funext a
  match a with
  | ⟨0, _⟩ => rfl
  | ⟨1, _⟩ => rfl

/-- At the extended reals it is the sum over the lanes. -/
theorem laneSum_eq (v : FVec Ideal S16384 .f32) : laneSum v = ∑ l : Fin 16384, v (ix1 l) := by
  unfold laneSum
  refine (entry_apply _).trans ?_
  refine (shapeCast_apply _ shapeCasts_S1_S1x1 (ix2 0 0) (ix1 0)
    (by rw [Shape.rowMajor_val_two, Shape.rowMajor_val_one]; rfl)).trans ?_
  refine (Ideal.multiReduction_add_single _ 0x00000000#32 reduces_S1x16384_S1 (.inl rfl) rfl (ix1 0)).trans ?_
  refine Finset.sum_congr rfl fun l _ => ?_
  exact shapeCast_apply v shapeCasts_S16384_S1x16384 _ (ix1 l)
    (by rw [Shape.rowMajor_val_two, Shape.rowMajor_val_one]; show l.val = 0 * 16384 + l.val; omega)

/-- The block's total is the three lane sums of the masked terms, added left to right. -/
theorem total_lanes {F : FTy → Type} [FloatOps F] (v16 v21 v24 : IVec S16384 1) (v31 v38 v40 v42 : FVec F S16384 .f32) :
    k0_pay17 v16 v21 v24 v31 v38 v40 v42
      = broadcast S1x1 (Scalar.addf (Scalar.addf
          (laneSum (select v16 v31 (broadcast S16384 (Scalar.ofBits .f32 0x00000000#32))))
          (laneSum (select v21 v38 (broadcast S16384 (Scalar.ofBits .f32 0x00000000#32)))))
          (laneSum (select v24
            (maximumf (addf (subf v40 v42) (broadcast S16384 (Scalar.ofBits .f32 0x3DCCCCCD#32)))
              (broadcast S16384 (Scalar.ofBits .f32 0x00000000#32)))
            (broadcast S16384 (Scalar.ofBits .f32 0x00000000#32))))) := rfl

/-- The block's count is the three lane sums of the mask bits as reals, added left to right. -/
theorem count_lanes {F : FTy → Type} [FloatOps F] (v16 v21 v24 : IVec S16384 1) :
    k0_pay16 (F := F) v16 v21 v24
      = Scalar.addf (Scalar.addf (laneSum (sitofp .f32 (extui 32 v16 natLt_1_32))) (laneSum (sitofp .f32 (extui 32 v21 natLt_1_32))))
          (laneSum (sitofp .f32 (extui 32 v24 natLt_1_32))) := rfl

end Cert.KernelIdeal.BlockValue

end
-- ==== Proof.KernelRows.lean ====
/-
  The kernel's masks and terms, lane by lane.

  At lane `l` of a block each mask is the row's mask (both scores above the threshold, or all three) and each term is
  the row's hinge: the specification's scalar functions of row `l`'s three scores and its time.
-/
import proofs.«159499_j78993038508697_1_alg».proof.Proof.KernelLanes
import proofs.«159499_j78993038508697_1_alg».proof.Proof.RowLoss

noncomputable section

open Idealize.ShloMosaic Idealize.ShloMosaic.TcCoe Idealize.ShloMosaic.ValueIdx

namespace Cert.KernelIdeal.BlockValue

open Cert.KernelIdeal Cert.KernelIdeal.Gen Cert.KernelIdeal.Steps

/-! ## Masks and terms at a lane are the row's -/

section Rows
variable (x0 : Vec Ideal S16384x4 .f32) (x1 : Vec Ideal S16384x1 .f32) (l : Fin 16384)

theorem mask45_apply : k0_pay9 x0 (ix1 l) = RowLoss.both (RowLoss.above (x0 (ix2 l 1))) (RowLoss.above (x0 (ix2 l 2))) := by
  show IntOp.andi (FloatOps.cmpf .ogt (k0_pay5 x0 (ix1 l)) _) (FloatOps.cmpf .ogt (k0_pay6 x0 (ix1 l)) _) = _
  rw [score4_apply, score5_apply]; rfl

theorem mask56_apply : k0_pay10 x0 (ix1 l) = RowLoss.both (RowLoss.above (x0 (ix2 l 2))) (RowLoss.above (x0 (ix2 l 3))) := by
  show IntOp.andi (FloatOps.cmpf .ogt (k0_pay6 x0 (ix1 l)) _) (FloatOps.cmpf .ogt (k0_pay7 x0 (ix1 l)) _) = _
  rw [score5_apply, score6_apply]; rfl

theorem mask456_apply : k0_pay11 x0 (ix1 l)
    = RowLoss.both (RowLoss.both (RowLoss.above (x0 (ix2 l 1))) (RowLoss.above (x0 (ix2 l 2)))) (RowLoss.above (x0 (ix2 l 3))) := by
  show IntOp.andi (k0_pay9 x0 (ix1 l)) (FloatOps.cmpf .ogt (k0_pay7 x0 (ix1 l)) _) = _
  rw [mask45_apply, score6_apply]; rfl

theorem hinge45_apply : k0_pay12 x0 x1 (ix1 l) = RowLoss.hinge (x0 (ix2 l 1)) (x0 (ix2 l 2)) (x1 (ix2 l 0)) := by
  show max (_ - (k0_pay6 x0 (ix1 l) * k0_pay8 x1 (ix1 l) - k0_pay5 x0 (ix1 l) * k0_pay8 x1 (ix1 l))) _ = _
  rw [score4_apply, score5_apply, time_apply]; rfl

theorem hinge56_apply : k0_pay13 x0 x1 (ix1 l) = RowLoss.hinge (x0 (ix2 l 2)) (x0 (ix2 l 3)) (x1 (ix2 l 0)) := by
  show max (_ - (k0_pay7 x0 (ix1 l) * k0_pay8 x1 (ix1 l) - k0_pay6 x0 (ix1 l) * k0_pay8 x1 (ix1 l))) _ = _
  rw [score5_apply, score6_apply, time_apply]; rfl

theorem spread_apply :
    max ((k0_pay14 x0 (ix1 l) - k0_pay15 x0 (ix1 l)) + Ideal.ofBits .f32 0x3DCCCCCD#32) (Ideal.ofBits .f32 0x00000000#32)
      = RowLoss.spread (x0 (ix2 l 1)) (x0 (ix2 l 2)) (x0 (ix2 l 3)) := by
  show max ((FloatOps.absf (F := Ideal) (φ := .f32) (k0_pay6 x0 (ix1 l) - k0_pay5 x0 (ix1 l))
      - FloatOps.absf (F := Ideal) (φ := .f32) (k0_pay7 x0 (ix1 l) - k0_pay6 x0 (ix1 l))) + _) _ = _
  rw [score4_apply, score5_apply, score6_apply]; rfl

end Rows

end Cert.KernelIdeal.BlockValue

end
-- ==== Proof.KernelValue.lean ====
/-
  One block's total and count, as sums over its rows.

  The block's total is three lane sums of masked terms and its count three lane sums of mask bits. A lane sum is the sum
  over the block's rows, and at each row the masked term, or the bit, is the specification's. So the block's total and
  count are the specification's total and count taken over the block's own 16384 rows.
-/
import proofs.«159499_j78993038508697_1_alg».proof.Proof.KernelRows

noncomputable section

open Idealize.ShloMosaic Idealize.ShloMosaic.TcCoe Idealize.ShloMosaic.ValueIdx

namespace Cert.KernelIdeal.BlockValue

open Cert.KernelIdeal Cert.KernelIdeal.Gen Cert.KernelIdeal.Steps

/-! ## The block's total and count -/

/-- A block's total is the specification's total over the block's rows. -/
theorem blockTotal_eq (x0 : Vec Ideal S16384x4 .f32) (x1 : Vec Ideal S16384x1 .f32) (i : S1x1.Idx) :
    blockTotal x0 x1 i = RowLoss.total (n := 16384) x0 x1 := by
  refine (congrFun (total_lanes _ _ _ _ _ _ _) i).trans ?_
  show Scalar.addf (Scalar.addf _ _) _ = _
  rw [Ideal.scalar_addf_def, Ideal.scalar_addf_def, laneSum_eq, laneSum_eq, laneSum_eq]
  unfold RowLoss.total
  refine congrArg₂ (· + ·) (congrArg₂ (· + ·) (Finset.sum_congr rfl fun l _ => ?_) (Finset.sum_congr rfl fun l _ => ?_))
    (Finset.sum_congr rfl fun l _ => ?_)
  · show Scalar.select (k0_pay9 x0 (ix1 l)) (k0_pay12 x0 x1 (ix1 l)) _ = _
    rw [mask45_apply, hinge45_apply]; rfl
  · show Scalar.select (k0_pay10 x0 (ix1 l)) (k0_pay13 x0 x1 (ix1 l)) _ = _
    rw [mask56_apply, hinge56_apply]; rfl
  · show Scalar.select (k0_pay11 x0 (ix1 l))
      (max ((k0_pay14 x0 (ix1 l) - k0_pay15 x0 (ix1 l)) + Ideal.ofBits .f32 0x3DCCCCCD#32) (Ideal.ofBits .f32 0x00000000#32)) _ = _
    rw [mask456_apply, spread_apply]; rfl

/-- A block's count is the specification's count over the block's rows. -/
theorem blockCount_eq (x0 : Vec Ideal S16384x4 .f32) :
    blockCount x0 = RowLoss.count (n := 16384) x0 := by
  refine (count_lanes _ _ _).trans ?_
  rw [Ideal.scalar_addf_def, Ideal.scalar_addf_def, laneSum_eq, laneSum_eq, laneSum_eq]
  unfold RowLoss.count
  refine congrArg₂ (· + ·) (congrArg₂ (· + ·) (Finset.sum_congr rfl fun l _ => ?_) (Finset.sum_congr rfl fun l _ => ?_))
    (Finset.sum_congr rfl fun l _ => ?_)
  · show ((((k0_pay9 x0 (ix1 l)).setWidth 32).toInt : ℝ) : EReal) = _
    rw [mask45_apply]; rfl
  · show ((((k0_pay10 x0 (ix1 l)).setWidth 32).toInt : ℝ) : EReal) = _
    rw [mask56_apply]; rfl
  · show ((((k0_pay11 x0 (ix1 l)).setWidth 32).toInt : ℝ) : EReal) = _
    rw [mask456_apply]; rfl

end Cert.KernelIdeal.BlockValue

end
-- ==== Proof.KernelLoss.lean ====
/-
  The kernel's result, as the specification's function of its two arguments.

  At the extended reals the accumulators after grid point `n` hold zero plus the first `n + 1` blocks' totals and counts,
  added one after the other: the running sums. After the last point that is the sum over all 512 blocks, which is the
  total and the count over all 8388608 rows, since block `b` is rows 16384·b … 16384·b + 16383 of the arguments. The
  program's result is the specification's last step of those two numbers.
-/
import proofs.«159499_j78993038508697_1_alg».proof.Proof.KernelResult
import proofs.«159499_j78993038508697_1_alg».proof.Proof.KernelBlocks
import proofs.«159499_j78993038508697_1_alg».proof.Proof.KernelValue

noncomputable section

open Idealize.ShloMosaic Idealize.ShloMosaic.TcCoe Idealize.ShloMosaic.ValueIdx Idealize.SL.Sem
open Idealize.ShloMosaic.Pipeline (Dat)

namespace Cert.KernelIdeal.Loss

open Cert.KernelIdeal Cert.KernelIdeal.Gen Cert.KernelIdeal.Steps Cert.KernelIdeal.Chain Cert.KernelIdeal.Blocks
open Cert.KernelIdeal.BlockValue Cert.KernelIdeal.Result Cert.KernelIdeal.Outputs

/-! ## The accumulators' updates at their one entry -/

theorem add_total_apply (u v : Vec Ideal S1x1 .f32) (i : S1x1.Idx) : k0_pay1 u v i = u i + v i := by
  show shapeCast S1x1 (addf (F := Ideal) u v) shapeCasts_S1x1_S1x1 i = _
  rw [shapeCast_self]; rfl

theorem add_count_apply (s : EReal) (v : Vec Ideal S1x1 .f32) (i : S1x1.Idx) : k0_pay2 (F := Ideal) s v i = v i + s := by
  show shapeCast S1x1 (addf (F := Ideal) v (broadcast S1x1 s)) shapeCasts_S1x1_S1x1 i = _
  rw [shapeCast_self]; rfl

theorem zero_total_apply (i : S1x1.Idx) : k0_pay3 (F := Ideal) i = RowLoss.zer := by
  show shapeCast S1x1 (broadcast S1x1 (Scalar.ofBits (F := Ideal) .f32 0x00000000#32)) shapeCasts_S1x1_S1x1 i = _
  rw [shapeCast_self]; rfl

theorem zero_count_apply (i : S1x1.Idx) : k0_pay4 (F := Ideal) i = RowLoss.zer := by
  show shapeCast S1x1 (broadcast S1x1 (Scalar.ofBits (F := Ideal) .f32 0x00000000#32)) shapeCasts_S1x1_S1x1 i = _
  rw [shapeCast_self]; rfl

variable (m : (ℓ : Loc nD τ sig) → Buf (Elt Ideal) ℓ) (ρ : Dev nD → PrngReg)

/-- Block `b`'s total and count, as the specification's over the block's rows. -/
def totalOf (c : Dev nD) (b : Fin 512) : EReal :=
  RowLoss.total (n := 16384) (scoresAt m c (pointOf b)) (timesAt m c (pointOf b))
def countOf (c : Dev nD) (b : Fin 512) : EReal :=
  RowLoss.count (n := 16384) (scoresAt m c (pointOf b))

/-- After grid point `n` the accumulators hold the running sums of the blocks' totals and counts. -/
theorem held_eq (c : Dev nD) (i : S1x1.Idx) : ∀ (n : ℕ) (h : n < cfg0.N),
    (held m c n h).1 i = RowLoss.running (fun s => if hs : s < 512 then totalOf m c ⟨s, hs⟩ else 0) n
    ∧ (held m c n h).2 i = RowLoss.running (fun s => if hs : s < 512 then countOf m c ⟨s, hs⟩ else 0) n
  | 0, h => by
    have h0 : (0 : ℕ) < 512 := by norm_num
    rw [held_zero]
    dsimp only
    constructor
    · show _ = RowLoss.zer + _
      rw [add_total_apply, zero_total_apply, blockTotal_eq]; beta_reduce; rw [dif_pos h0]; rfl
    · show _ = RowLoss.zer + _
      rw [add_count_apply, zero_count_apply, blockCount_eq]; beta_reduce; rw [dif_pos h0]; rfl
  | n + 1, h => by
    have hN : cfg0.N = 512 := N_0
    have h1 : n + 1 < 512 := by omega
    have ih := held_eq c i n (Nat.lt_of_succ_lt h)
    rw [held_succ]
    dsimp only
    constructor
    · show _ = RowLoss.running _ n + _
      rw [add_total_apply, ih.1, blockTotal_eq]; beta_reduce; rw [dif_pos h1]; rfl
    · show _ = RowLoss.running _ n + _
      rw [add_count_apply, ih.2, blockCount_eq]; beta_reduce; rw [dif_pos h1]; rfl

/-- The final total is the total over all rows of the arguments. -/
theorem total_final (c : Dev nD) (i : S1x1.Idx) :
    totalArr m c i = RowLoss.total (n := 8388608) (m ((c : Thread nD τ).loc main_arg0)) (m ((c : Thread nD τ).loc main_arg1)) := by
  refine ((held_eq m c i lastPt.val lastPt.isLt).1.trans (RowLoss.running_last (totalOf m c))).trans ?_
  exact RowLoss.total_blocks _ _ (fun b => scoresAt m c (pointOf b)) (fun b => timesAt m c (pointOf b))
    (fun b l k => scores_entry m c b l k) (fun b l k => times_entry m c b l k)

/-- The final count is the count over all rows. -/
theorem count_final (c : Dev nD) (i : S1x1.Idx) :
    countArr m c i = RowLoss.count (n := 8388608) (m ((c : Thread nD τ).loc main_arg0)) := by
  refine ((held_eq m c i lastPt.val lastPt.isLt).2.trans (RowLoss.running_last (countOf m c))).trans ?_
  exact RowLoss.count_blocks _ (fun b => scoresAt m c (pointOf b)) (fun b l k => scores_entry m c b l k)

/-- A [1, 1] array reshaped to a scalar is its one entry. -/
theorem scalar_apply {α : Type} (x : S1x1.Idx → α) (j : S_.Idx) : shapeCast S_ x shapeCasts_S1x1_S_ j = x (ix2 0 0) :=
  shapeCast_apply x shapeCasts_S1x1_S_ j (ix2 0 0) (by
    have h1 : (S_.rowMajor j).val < 1 := (S_.rowMajor j).isLt
    rw [Shape.rowMajor_val_two]
    show 0 * 1 + 0 = _
    omega)

/-- THE KERNEL'S RESULT: the last step of the total and the count over all rows of the arguments. -/
theorem result_eq (c : Dev nD) :
    Pipeline.afterTail₀ cfgs (dats m) 0 (V0 m) [hostOps1] c main_v0
      = RowLoss.scaled (F := Ideal)
          (fun _ => RowLoss.total (n := 8388608) (m ((c : Thread nD τ).loc main_arg0)) (m ((c : Thread nD τ).loc main_arg1)))
          (fun _ => RowLoss.count (n := 8388608) (m ((c : Thread nD τ).loc main_arg0))) := by
  rw [tail_eq]
  have ht : shapeCast S_ (totalArr m c) shapeCasts_S1x1_S_
      = fun _ => RowLoss.total (n := 8388608) (m ((c : Thread nD τ).loc main_arg0)) (m ((c : Thread nD τ).loc main_arg1)) :=
    funext fun j => (scalar_apply _ j).trans (total_final m c _)
  have hc : shapeCast S_ (countArr m c) shapeCasts_S1x1_S_
      = fun _ => RowLoss.count (n := 8388608) (m ((c : Thread nD τ).loc main_arg0)) :=
    funext fun j => (scalar_apply _ j).trans (count_final m c _)
  rw [ht, hc]

/-- The run, read: the result at the specification's value, the arguments unchanged. -/
theorem run : θ_run defs (onTc (τ := τ) (main (F := Ideal))) ⟨m, fun _ => 0, ρ⟩ fun r => ∀ c : Dev nD,
      r.2.mem ((c : Thread nD τ).loc main_v0)
        = RowLoss.scaled (F := Ideal)
            (fun _ => RowLoss.total (n := 8388608) (m ((c : Thread nD τ).loc main_arg0)) (m ((c : Thread nD τ).loc main_arg1)))
            (fun _ => RowLoss.count (n := 8388608) (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (by decide)).trans (result_eq m c),
     ((h c).1 0).trans ((dats m 0 c).arrAt_in 0 rfl _),
     ((h c).1 1).trans ((dats m 0 c).arrAt_in 1 rfl _)⟩) (run_main m ρ)

end Cert.KernelIdeal.Loss

end
-- ==== Proof.ReferenceValue.lean ====
/-
  What the reference computes, as the specification's function of its two arguments.

  The reference slices columns 1, 2, 3 of the scores and the one column of the times into four vectors over all 8388608
  rows, forms the same masks and hinge terms row by row, and sums each masked vector over the rows from zero. Its count is
  taken another way: each mask is widened to 32-bit words, each summed as words, the three sums added as words, and the
  result converted to a real — which is the sum of the masks' bits (the specification's counting law). Its last
  operations are the specification's last step. So its result is that last step of the total and the count over all rows.
-/
import proofs.«159499_j78993038508697_1_alg».proof.Defs
import proofs.«159499_j78993038508697_1_alg».proof.Proof.ReferenceRun
import proofs.«159499_j78993038508697_1_alg».proof.Proof.ReferenceRead
import proofs.«159499_j78993038508697_1_alg».proof.Proof.RowLoss

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (a0 : S8388608x4.Idx → EReal) (a1 : S8388608x1.Idx → EReal) (r : Fin 8388608)

/-! ## Columns: position `r` of a sliced column is row `r`'s entry -/

theorem score4 : val_main_v1 (F := Ideal) a0 (ix1 r) = a0 (ix2 r 1) := by
  rw [val_main_v1_apply, val_main_v0_apply]
  congr 1; funext a; apply Fin.ext
  match a with
  | ⟨0, _⟩ => exact Nat.div_one _
  | ⟨1, _⟩ => rfl

theorem score5 : val_main_v3 (F := Ideal) a0 (ix1 r) = a0 (ix2 r 2) := by
  rw [val_main_v3_apply, val_main_v2_apply]
  congr 1; funext a; apply Fin.ext
  match a with
  | ⟨0, _⟩ => exact Nat.div_one _
  | ⟨1, _⟩ => rfl

theorem score6 : val_main_v5 (F := Ideal) a0 (ix1 r) = a0 (ix2 r 3) := by
  rw [val_main_v5_apply, val_main_v4_apply]
  congr 1; funext a; apply Fin.ext
  match a with
  | ⟨0, _⟩ => exact Nat.div_one _
  | ⟨1, _⟩ => rfl

theorem time : val_main_v6 (F := Ideal) a1 (ix1 r) = a1 (ix2 r 0) := by
  rw [val_main_v6_apply]
  congr 1; funext a; apply Fin.ext
  match a with
  | ⟨0, _⟩ => exact Nat.div_one _
  | ⟨1, _⟩ => rfl

/-! ## Masks and masked terms at a row -/

theorem mask45_apply : val_main_v11 (F := Ideal) a0 (ix1 r)
    = RowLoss.both (RowLoss.above (a0 (ix2 r 1))) (RowLoss.above (a0 (ix2 r 2))) := by
  rw [val_main_v11_apply, val_main_v8_apply, val_main_v10_apply, val_main_v7_apply, val_main_v9_apply, score4, score5]
  rfl

theorem mask56_apply : val_main_v16 (F := Ideal) a0 (ix1 r)
    = RowLoss.both (RowLoss.above (a0 (ix2 r 2))) (RowLoss.above (a0 (ix2 r 3))) := by
  rw [val_main_v16_apply, val_main_v13_apply, val_main_v15_apply, val_main_v12_apply, val_main_v14_apply, score5, score6]
  rfl

theorem mask456_apply : val_main_v19 (F := Ideal) a0 (ix1 r)
    = RowLoss.both (RowLoss.both (RowLoss.above (a0 (ix2 r 1))) (RowLoss.above (a0 (ix2 r 2)))) (RowLoss.above (a0 (ix2 r 3))) := by
  rw [val_main_v19_apply, val_main_v18_apply, val_main_v17_apply, mask45_apply, score6]
  rfl

theorem l45_apply : val_main_v40 (F := Ideal) a0 a1 (ix1 r) = RowLoss.l45 (a0 (ix2 r 1)) (a0 (ix2 r 2)) (a1 (ix2 r 0)) := by
  rw [val_main_v40_apply, mask45_apply, val_main_v25_apply, val_main_v24_apply, val_main_v22_apply, val_main_v20_apply,
    val_main_v21_apply, val_main_v23_apply, val_main_call0_v0_apply, val_main_call3_v1_apply, score4, score5, time]
  rfl

theorem l56_apply : val_main_v42 (F := Ideal) a0 a1 (ix1 r) = RowLoss.l56 (a0 (ix2 r 2)) (a0 (ix2 r 3)) (a1 (ix2 r 0)) := by
  rw [val_main_v42_apply, mask56_apply, val_main_v31_apply, val_main_v30_apply, val_main_v28_apply, val_main_v26_apply,
    val_main_v27_apply, val_main_v29_apply, val_main_call1_v0_apply, val_main_call4_v1_apply, score5, score6, time]
  rfl

theorem l456_apply : val_main_v45 (F := Ideal) a0 (ix1 r) = RowLoss.l456 (a0 (ix2 r 1)) (a0 (ix2 r 2)) (a0 (ix2 r 3)) := by
  rw [val_main_v45_apply, mask456_apply, val_main_v39_apply, val_main_v38_apply, val_main_v36_apply, val_main_v33_apply,
    val_main_v35_apply, val_main_v32_apply, val_main_v34_apply, val_main_v37_apply, val_main_call2_v0_apply,
    val_main_call5_v1_apply, score4, score5, score6]
  rfl

/-! ## The three sums of terms -/

theorem sum45 : ∑ j : S8388608.Idx, val_main_v40 (F := Ideal) a0 a1 j
    = ∑ r : Fin 8388608, RowLoss.l45 (a0 (ix2 r 1)) (a0 (ix2 r 2)) (a1 (ix2 r 0)) :=
  (MaskCount.sum_idx1 (n := 8388608) fun j => val_main_v40 (F := Ideal) a0 a1 j).trans
    (Finset.sum_congr rfl fun r _ => l45_apply a0 a1 r)

theorem sum56 : ∑ j : S8388608.Idx, val_main_v42 (F := Ideal) a0 a1 j
    = ∑ r : Fin 8388608, RowLoss.l56 (a0 (ix2 r 2)) (a0 (ix2 r 3)) (a1 (ix2 r 0)) :=
  (MaskCount.sum_idx1 (n := 8388608) fun j => val_main_v42 (F := Ideal) a0 a1 j).trans
    (Finset.sum_congr rfl fun r _ => l56_apply a0 a1 r)

theorem sum456 : ∑ j : S8388608.Idx, val_main_v45 (F := Ideal) a0 j
    = ∑ r : Fin 8388608, RowLoss.l456 (a0 (ix2 r 1)) (a0 (ix2 r 2)) (a0 (ix2 r 3)) :=
  (MaskCount.sum_idx1 (n := 8388608) fun j => val_main_v45 (F := Ideal) a0 j).trans
    (Finset.sum_congr rfl fun r _ => l456_apply a0 r)

/-- The reference's total is the specification's: each of its three sums starts from zero. -/
theorem total_eq (i : S_.Idx) : val_main_v47 (F := Ideal) a0 a1 i = RowLoss.total (n := 8388608) a0 a1 := by
  rw [val_main_v47_apply, val_main_v44_apply, val_main_v41_apply, val_main_v43_apply, val_main_v46_apply,
    sum45, sum56, sum456]
  show ((RowLoss.zer + _) + (RowLoss.zer + _)) + (RowLoss.zer + _) = _
  rw [RowLoss.zer_eq, zero_add, zero_add, zero_add]
  rfl

/-- The reference's count is the specification's: the counting law, on the three masks. -/
theorem count_eq (i : S_.Idx) : val_main_v56 (F := Ideal) a0 i = RowLoss.count (n := 8388608) a0 := by
  refine (RowLoss.count_words (val_main_v11 (F := Ideal) a0) (val_main_v16 (F := Ideal) a0) (val_main_v19 (F := Ideal) a0)
    natLt_1_32 reducesTo_S8388608_S_d0 h_S_ i).trans ?_
  unfold RowLoss.count
  refine congrArg₂ (· + ·) (congrArg₂ (· + ·) (Finset.sum_congr rfl fun r _ => ?_) (Finset.sum_congr rfl fun r _ => ?_))
    (Finset.sum_congr rfl fun r _ => ?_)
  · rw [mask45_apply]; rfl
  · rw [mask56_apply]; rfl
  · rw [mask456_apply]; rfl

/-- The reference's result: the last step of the total and the count over all rows. -/
theorem result_eq : val_main_v61 (F := Ideal) a0 a1
    = RowLoss.scaled (F := Ideal) (fun _ => RowLoss.total (n := 8388608) a0 a1) (fun _ => RowLoss.count (n := 8388608) a0) := by
  have ht : val_main_v47 (F := Ideal) a0 a1 = fun _ => RowLoss.total (n := 8388608) a0 a1 := funext (total_eq a0 a1)
  have hc : val_main_v56 (F := Ideal) a0 = fun _ => RowLoss.count (n := 8388608) a0 := funext (count_eq a0)
  show RowLoss.scaled (F := Ideal) (val_main_v47 (F := Ideal) a0 a1) (val_main_v56 (F := Ideal) a0) = _
  rw [ht, hc]

end Cert.ReferenceIdeal.RefValue

end
-- ==== Proof.lean ====
/-
  The temporal-consistency loss: the Pallas kernel against its jnp reference, over the extended reals.

  Both programs compute, from 8388608 rows of scores (p4, p5, p6 in columns 1–3) and times t,

      0.1 · (if count > 0 then total / max(count, 1) else total),

  where total = Σ l45 + Σ l56 + Σ l456 is the sum of three masked hinge terms per row and count = Σ c45 + Σ c56 + Σ c456
  the number of rows each mask keeps (Proof/RowLoss.lean states the terms). They differ in HOW the two sums are taken:

  * the kernel walks 512 grid points of 16384 rows each, carrying the running total and the running count in two
    one-entry accumulators (zeroed at the first point, copied to the outputs at the last), each point adding its block's
    three lane sums; the reference takes each of the three sums over all rows at once. Over the extended reals addition
    is a commutative monoid, so the sum over the blocks of the blocks' sums is the sum over all rows (no finiteness is
    needed, and the precondition is never opened);
  * the kernel counts by summing mask bits AS REALS; the reference sums them as 32-bit integers, adds the three integer
    sums, and converts the result to a real. Each sum is at most 2²³ and the three together at most 3·2²³ < 2³¹, so no
    word addition wraps and the signed reading of the result is the count.

  Every literal (0.3, 0.1, 0, 1) is the same word on both sides and is never evaluated. The ideal pass rewrote nothing,
  so `preserves` is trivial. The kernel's frames are the generated ones; the reference's is its run with the result
  dropped.
-/
import proofs.«159499_j78993038508697_1_alg».proof.Defs
import proofs.«159499_j78993038508697_1_alg».proof.Proof.Gen.Kernel
import proofs.«159499_j78993038508697_1_alg».proof.Proof.Gen.Kernel.Skeleton
import proofs.«159499_j78993038508697_1_alg».proof.Proof.Gen.Kernel.Launch
import proofs.«159499_j78993038508697_1_alg».proof.Proof.Gen.Kernel.Points
import proofs.«159499_j78993038508697_1_alg».proof.Proof.Gen.Kernel.Frame
import proofs.«159499_j78993038508697_1_alg».proof.Proof.Gen.KernelIdeal
import proofs.«159499_j78993038508697_1_alg».proof.Proof.Gen.KernelIdeal.Skeleton
import proofs.«159499_j78993038508697_1_alg».proof.Proof.Gen.KernelIdeal.Launch
import proofs.«159499_j78993038508697_1_alg».proof.Proof.Gen.KernelIdeal.Points
import proofs.«159499_j78993038508697_1_alg».proof.Proof.Gen.KernelIdeal.Frame
import proofs.«159499_j78993038508697_1_alg».proof.Proof.Gen.ReferenceIdeal
import proofs.«159499_j78993038508697_1_alg».proof.Proof.Gen.Pre_finite_inputs
import proofs.«159499_j78993038508697_1_alg».proof.Proof.KernelLoss
import proofs.«159499_j78993038508697_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the specification's last step of the total and the count over all rows of the
    arguments — the kernel's (Proof/KernelLoss.lean) of its own arguments, the reference's (Proof/ReferenceValue.lean) of
    arguments that agree with them. -/
theorem algebraic : Cert.algebraic_KernelIdeal_ReferenceIdeal := by
  intro m ρ m' ρ' _ hagree
  refine ⟨_, Cert.KernelIdeal.Loss.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v61_eq m' c).trans ?_
  refine (Cert.ReferenceIdeal.RefValue.result_eq _ _).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
